-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x3703 : Shape := ⟨2, ![10000, 3703]⟩
abbrev S2x160000 : Shape := ⟨2, ![2, 160000]⟩
abbrev S3703x1024 : Shape := ⟨2, ![3703, 1024]⟩
abbrev S1024 : Shape := ⟨1, ![1024]⟩
abbrev S1024x6 : Shape := ⟨2, ![1024, 6]⟩
abbrev S6 : Shape := ⟨1, ![6]⟩
abbrev S_ : Shape := ⟨0, ![]⟩

class Facts : Prop where
  bcast_S_S10000x3703 : S_.BroadcastsInDim S10000x3703 (![] : Fin 0 → Fin S10000x3703.rank)
  reducesTo_S10000x3703_S_d0_1 : S10000x3703.ReducesTo [0, 1] S_
  h_S_ : 0 < S_.numel
  bcast_S_S3703x1024 : S_.BroadcastsInDim S3703x1024 (![] : Fin 0 → Fin S3703x1024.rank)
  reducesTo_S3703x1024_S_d0_1 : S3703x1024.ReducesTo [0, 1] S_
  bcast_S_S1024 : S_.BroadcastsInDim S1024 (![] : Fin 0 → Fin S1024.rank)
  reducesTo_S1024_S_d0 : S1024.ReducesTo [0] S_
  bcast_S_S1024x6 : S_.BroadcastsInDim S1024x6 (![] : Fin 0 → Fin S1024x6.rank)
  reducesTo_S1024x6_S_d0_1 : S1024x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S6 .f32) (main_v13 : IVec S_ 1) (main_v16 : IVec S1024x6 1) : IVec S_ 1 :=
  let main_c_5 : IVec S_ 1 := constantI S_ 1 1#1
  let main_v17 : IVec S_ 1 := (fun x v => Host.reduce IntOp.andi x v reducesTo_S1024x6_S_d0_1 h_S_) main_v16 main_c_5
  let main_v18 : IVec S_ 1 := andi main_v13 main_v17
  let main_v19 : FVec F S6 .f32 := Host.absf main_arg5
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  main_v23

def fn {F : FTy → Type} [FloatOps F] (main_arg0 : FVec F S10000x3703 .f32) (main_arg1 : IVec S2x160000 32) (main_arg2 : FVec F S3703x1024 .f32) (main_arg3 : FVec F S1024 .f32) (main_arg4 : FVec F S1024x6 .f32) (main_arg5 : FVec F S6 .f32) : IVec S_ 1 :=
  let main_v0 : FVec F S10000x3703 .f32 := Host.absf main_arg0
  let main_cst : FVec F S_ .f32 := constant S_ .f32 0x7F800000#32
  let main_v1 : FVec F S10000x3703 .f32 := broadcastInDim S10000x3703 ![] bcast_S_S10000x3703 main_cst
  let main_v2 : IVec S10000x3703 1 := cmpf .olt main_v0 main_v1
  let main_c : IVec S_ 1 := constantI S_ 1 1#1
  let main_v3 : IVec S_ 1 := (fun x v => Host.reduce IntOp.andi x v reducesTo_S10000x3703_S_d0_1 h_S_) main_v2 main_c
  let main_v4 : FVec F S3703x1024 .f32 := Host.absf main_arg2
  let main_cst_0 : FVec F S_ .f32 := constant S_ .f32 0x7F800000#32
  let main_v5 : FVec F S3703x1024 .f32 := broadcastInDim S3703x1024 ![] bcast_S_S3703x1024 main_cst_0
  let main_v6 : IVec S3703x1024 1 := cmpf .olt main_v4 main_v5
  let main_c_1 : IVec S_ 1 := constantI S_ 1 1#1
  let main_v7 : IVec S_ 1 := (fun x v => Host.reduce IntOp.andi x v reducesTo_S3703x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x6 .f32 := Host.absf main_arg4
  let main_cst_4 : FVec F S_ .f32 := constant S_ .f32 0x7F800000#32
  let main_v15 : FVec F S1024x6 .f32 := broadcastInDim S1024x6 ![] bcast_S_S1024x6 main_cst_4
  let main_v16 : IVec S1024x6 1 := cmpf .olt main_v14 main_v15
  fn_part1 (F := F) main_arg5 main_v13 main_v16
-- ==== Kernel.lean ====
abbrev S10000x3703 : Shape := ⟨2, ![10000, 3703]⟩
abbrev S2x160000 : Shape := ⟨2, ![2, 160000]⟩
abbrev S3703x1024 : Shape := ⟨2, ![3703, 1024]⟩
abbrev S1024 : Shape := ⟨1, ![1024]⟩
abbrev S1024x6 : Shape := ⟨2, ![1024, 6]⟩
abbrev S6 : Shape := ⟨1, ![6]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x3712 : Shape := ⟨2, ![10000, 3712]⟩
abbrev S3712x1024 : Shape := ⟨2, ![3712, 1024]⟩
abbrev S10000x1024 : Shape := ⟨2, ![10000, 1024]⟩
abbrev S400x3712 : Shape := ⟨2, ![400, 3712]⟩
abbrev S400x1024 : Shape := ⟨2, ![400, 1024]⟩
abbrev S170000x1024 : Shape := ⟨2, ![170000, 1024]⟩
abbrev S1x1024 : Shape := ⟨2, ![1, 1024]⟩
abbrev S10000x6 : Shape := ⟨2, ![10000, 6]⟩
abbrev S400x6 : Shape := ⟨2, ![400, 6]⟩
abbrev S170000x6 : Shape := ⟨2, ![170000, 6]⟩
abbrev S1x6 : Shape := ⟨2, ![1, 6]⟩
abbrev S10000x1 : Shape := ⟨2, ![10000, 1]⟩

abbrev nBuf : Space → Nat
  | .hbm => 106
  | .vmem => 10
  | .smem => 0
  | _ => 0

abbrev bufTy : (tb : Table) → Fin (tcTables nBuf tb) → BufTy
  | .hbm, ⟨0, _⟩ => ⟨S10000x3703, .f32⟩
  | .hbm, ⟨1, _⟩ => ⟨S2x160000, .i32⟩
  | .hbm, ⟨2, _⟩ => ⟨S3703x1024, .f32⟩
  | .hbm, ⟨3, _⟩ => ⟨S1024, .f32⟩
  | .hbm, ⟨4, _⟩ => ⟨S1024x6, .f32⟩
  | .hbm, ⟨5, _⟩ => ⟨S6, .f32⟩
  | .hbm, ⟨6, _⟩ => ⟨S10000, .i32⟩
  | .hbm, ⟨7, _⟩ => ⟨S1x160000, .i32⟩
  | .hbm, ⟨8, _⟩ => ⟨S160000, .i32⟩
  | .hbm, ⟨9, _⟩ => ⟨S170000, .i32⟩
  | .hbm, ⟨10, _⟩ => ⟨S1x160000, .i32⟩
  | .hbm, ⟨11, _⟩ => ⟨S160000, .i32⟩
  | .hbm, ⟨12, _⟩ => ⟨S170000, .i32⟩
  | .hbm, ⟨13, _⟩ => ⟨S_, .f32⟩
  | .hbm, ⟨14, _⟩ => ⟨S170000, .f32⟩
  | .hbm, ⟨15, _⟩ => ⟨S_, .f32⟩
  | .hbm, ⟨16, _⟩ => ⟨S10000, .f32⟩
  | .hbm, ⟨17, _⟩ => ⟨S170000x1, .i32⟩
  | .hbm, ⟨18, _⟩ => ⟨S10000, .f32⟩
  | .hbm, ⟨19, _⟩ => ⟨S10000, .f32⟩
  | .hbm, ⟨20, _⟩ => ⟨S_, .i32⟩
  | .hbm, ⟨21, _⟩ => ⟨S170000, .i32⟩
  | .hbm, ⟨22, _⟩ => ⟨S170000, .i1⟩
  | .hbm, ⟨23, _⟩ => ⟨S_, .i32⟩
  | .hbm, ⟨24, _⟩ => ⟨S170000, .i32⟩
  | .hbm, ⟨25, _⟩ => ⟨S170000, .i32⟩
  | .hbm, ⟨26, _⟩ => ⟨S170000, .i32⟩
  | .hbm, ⟨27, _⟩ => ⟨S170000x1, .i32⟩
  | .hbm, ⟨28, _⟩ => ⟨S170000, .f32⟩
  | .hbm, ⟨29, _⟩ => ⟨S_, .i32⟩
  | .hbm, ⟨30, _⟩ => ⟨S170000, .i32⟩
  | .hbm, ⟨31, _⟩ => ⟨S170000, .i1⟩
  | .hbm, ⟨32, _⟩ => ⟨S_, .i32⟩
  | .hbm, ⟨33, _⟩ => ⟨S170000, .i32⟩
  | .hbm, ⟨34, _⟩ => ⟨S170000, .i32⟩
  | .hbm, ⟨35, _⟩ => ⟨S170000, .i32⟩
  | .hbm, ⟨36, _⟩ => ⟨S170000x1, .i32⟩
  | .hbm, ⟨37, _⟩ => ⟨S170000, .f32⟩
  | .hbm, ⟨38, _⟩ => ⟨S170000, .f32⟩
  | .hbm, ⟨39, _⟩ => ⟨S170000x1, .f32⟩
  | .hbm, ⟨40, _⟩ => ⟨S_, .i32⟩
  | .hbm, ⟨41, _⟩ => ⟨S_, .f32⟩
  | .hbm, ⟨42, _⟩ => ⟨S10000x3712, .f32⟩
  | .hbm, ⟨43, _⟩ => ⟨S_, .i32⟩
  | .hbm, ⟨44, _⟩ => ⟨S_, .f32⟩
  | .hbm, ⟨45, _⟩ => ⟨S3712x1024, .f32⟩
  | .hbm, ⟨46, _⟩ => ⟨S10000x3712, .bf16⟩
  | .hbm, ⟨47, _⟩ => ⟨S3712x1024, .bf16⟩
  | .hbm, ⟨48, _⟩ => ⟨S10000x1024, .f32⟩
  | .hbm, ⟨49, _⟩ => ⟨S_, .i32⟩
  | .hbm, ⟨50, _⟩ => ⟨S170000, .i32⟩
  | .hbm, ⟨51, _⟩ => ⟨S170000, .i1⟩
  | .hbm, ⟨52, _⟩ => ⟨S_, .i32⟩
  | .hbm, ⟨53, _⟩ => ⟨S170000, .i32⟩
  | .hbm, ⟨54, _⟩ => ⟨S170000, .i32⟩
  | .hbm, ⟨55, _⟩ => ⟨S170000, .i32⟩
  | .hbm, ⟨56, _⟩ => ⟨S170000x1, .i32⟩
  | .hbm, ⟨57, _⟩ => ⟨S170000x1024, .f32⟩
  | .hbm, ⟨58, _⟩ => ⟨S170000x1024, .f32⟩
  | .hbm, ⟨59, _⟩ => ⟨S170000x1024, .f32⟩
  | .hbm, ⟨60, _⟩ => ⟨S_, .f32⟩
  | .hbm, ⟨61, _⟩ => ⟨S10000x1024, .f32⟩
  | .hbm, ⟨62, _⟩ => ⟨S170000x1, .i32⟩
  | .hbm, ⟨63, _⟩ => ⟨S10000x1024, .f32⟩
  | .hbm, ⟨64, _⟩ => ⟨S1x1024, .f32⟩
  | .hbm, ⟨65, _⟩ => ⟨S10000x1024, .f32⟩
  | .hbm, ⟨66, _⟩ => ⟨S10000x1024, .f32⟩
  | .hbm, ⟨67, _⟩ => ⟨S_, .f32⟩
  | .hbm, ⟨68, _⟩ => ⟨S10000x1024, .f32⟩
  | .hbm, ⟨69, _⟩ => ⟨S10000x1024, .f32⟩
  | .hbm, ⟨70, _⟩ => ⟨S10000x1024, .bf16⟩
  | .hbm, ⟨71, _⟩ => ⟨S1024x6, .bf16⟩
  | .hbm, ⟨72, _⟩ => ⟨S10000x6, .f32⟩
  | .hbm, ⟨73, _⟩ => ⟨S_, .i32⟩
  | .hbm, ⟨74, _⟩ => ⟨S170000, .i32⟩
  | .hbm, ⟨75, _⟩ => ⟨S170000, .i1⟩
  | .hbm, ⟨76, _⟩ => ⟨S_, .i32⟩
  | .hbm, ⟨77, _⟩ => ⟨S170000, .i32⟩
  | .hbm, ⟨78, _⟩ => ⟨S170000, .i32⟩
  | .hbm, ⟨79, _⟩ => ⟨S170000, .i32⟩
  | .hbm, ⟨80, _⟩ => ⟨S170000x1, .i32⟩
  | .hbm, ⟨81, _⟩ => ⟨S170000x6, .f32⟩
  | .hbm, ⟨82, _⟩ => ⟨S170000x6, .f32⟩
  | .hbm, ⟨83, _⟩ => ⟨S170000x6, .f32⟩
  | .hbm, ⟨84, _⟩ => ⟨S_, .f32⟩
  | .hbm, ⟨85, _⟩ => ⟨S10000x6, .f32⟩
  | .hbm, ⟨86, _⟩ => ⟨S170000x1, .i32⟩
  | .hbm, ⟨87, _⟩ => ⟨S10000x6, .f32⟩
  | .hbm, ⟨88, _⟩ => ⟨S1x6, .f32⟩
  | .hbm, ⟨89, _⟩ => ⟨S10000x6, .f32⟩
  | .hbm, ⟨90, _⟩ => ⟨S10000x6, .f32⟩
  | .hbm, ⟨91, _⟩ => ⟨S_, .f32⟩
  | .hbm, ⟨92, _⟩ => ⟨S10000, .f32⟩
  | .hbm, ⟨93, _⟩ => ⟨S_, .f32⟩
  | .hbm, ⟨94, _⟩ => ⟨S10000, .f32⟩
  | .hbm, ⟨95, _⟩ => ⟨S10000, .f32⟩
  | .hbm, ⟨96, _⟩ => ⟨S10000x1, .f32⟩
  | .hbm, ⟨97, _⟩ => ⟨S10000x6, .f32⟩
  | .hbm, ⟨98, _⟩ => ⟨S10000x6, .f32⟩
  | .hbm, ⟨99, _⟩ => ⟨S10000x6, .f32⟩
  | .hbm, ⟨100, _⟩ => ⟨S_, .f32⟩
  | .hbm, ⟨101, _⟩ => ⟨S10000, .f32⟩
  | .hbm, ⟨102, _⟩ => ⟨S10000x1, .f32⟩
  | .hbm, ⟨103, _⟩ => ⟨S10000x1, .f32⟩
  | .hbm, ⟨104, _⟩ => ⟨S10000x6, .f32⟩
  | .hbm, ⟨105, _⟩ => ⟨S10000x6, .f32⟩
  | .local _ .vmem, ⟨0, _⟩ => ⟨S400x3712, .bf16⟩
  | .local _ .vmem, ⟨1, _⟩ => ⟨S400x3712, .bf16⟩
  | .local _ .vmem, ⟨2, _⟩ => ⟨S3712x1024, .bf16⟩
  | .local _ .vmem, ⟨3, _⟩ => ⟨S400x1024, .f32⟩
  | .local _ .vmem, ⟨4, _⟩ => ⟨S400x1024, .f32⟩
  | .local _ .vmem, ⟨5, _⟩ => ⟨S400x1024, .bf16⟩
  | .local _ .vmem, ⟨6, _⟩ => ⟨S400x1024, .bf16⟩
  | .local _ .vmem, ⟨7, _⟩ => ⟨S1024x6, .bf16⟩
  | .local _ .vmem, ⟨8, _⟩ => ⟨S400x6, .f32⟩
  | .local _ .vmem, ⟨9, _⟩ => ⟨S400x6, .f32⟩
  | _, _ => ⟨S10000x3703, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_call0_v0 : Ref sig .tc := ⟨.hbm, 41, rfl⟩
abbrev main_v28 : Ref sig .tc := ⟨.hbm, 42, rfl⟩
abbrev main_c_5 : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call2_cst : Ref sig .tc := ⟨.hbm, 67, rfl⟩
abbrev main_call2_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call3_cst : Ref sig .tc := ⟨.hbm, 91, rfl⟩
abbrev main_call3_v0 : Ref sig .tc := ⟨.hbm, 92, rfl⟩
abbrev main_call3_cst_0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_cst_1 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_v67 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3712x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x6 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  pads_S10000x3703_S10000x3712_000_090 : S10000x3703.Pads (![0, 0] : Fin 2 → Nat) ![0, 9] ![0, 0] S10000x3712
  h_S_ : 0 < S_.numel
  pads_S3703x1024_S3712x1024_090_000 : S3703x1024.Pads (![0, 0] : Fin 2 → Nat) ![9, 0] ![0, 0] S3712x1024
  bitsLt_bf16_f32 : FTy.bits .bf16 < FTy.bits .f32
  inb_S400x3712_S400x3712_0_0 : ∀ a, (![0, 0] : Fin 2 → Nat) a + S400x3712.size a ≤ S400x3712.size a
  h_S400x3712 : 0 < S400x3712.numel
  shapeCasts_S400x3712_S400x3712 : S400x3712.ShapeCasts S400x3712
  inb_S3712x1024_S3712x1024_0_0 : ∀ a, (![0, 0] : Fin 2 → Nat) a + S3712x1024.size a ≤ S3712x1024.size a
  h_S3712x1024 : 0 < S3712x1024.numel
  shapeCasts_S3712x1024_S3712x1024 : S3712x1024.ShapeCasts S3712x1024
  inb_S400x1024_S400x1024_0_0 : ∀ a, (![0, 0] : Fin 2 → Nat) a + S400x1024.size a ≤ S400x1024.size a
  h_S400x1024 : 0 < S400x1024.numel
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  shapeCasts_S400x1024_S400x1024 : S400x1024.ShapeCasts S400x1024
  inb_S1024x6_S1024x6_0_0 : ∀ a, (![0, 0] : Fin 2 → Nat) a + S1024x6.size a ≤ S1024x6.size a
  h_S1024x6 : 0 < S1024x6.numel
  shapeCasts_S1024x6_S1024x6 : S1024x6.ShapeCasts S1024x6
  inb_S400x6_S400x6_0_0 : ∀ a, (![0, 0] : Fin 2 → Nat) a + S400x6.size a ≤ S400x6.size a
  h_S400x6 : 0 < S400x6.numel
  bcast_S170000x1_S170000x6_0_1 : S170000x1.BroadcastsInDim S170000x6 (![0, 1] : Fin 2 → Fin S170000x6.rank)
  bcast_S_S10000x6 : S_.BroadcastsInDim S10000x6 (![] : Fin 0 → Fin S10000x6.rank)
  bcast_S6_S1x6_1 : S6.BroadcastsInDim S1x6 (![1] : Fin 1 → Fin S1x6.rank)
  bcast_S1x6_S10000x6_0_1 : S1x6.BroadcastsInDim S10000x6 (![0, 1] : Fin 2 → Fin S10000x6.rank)
  reducesTo_S10000x6_S10000_d1 : S10000x6.ReducesTo [1] S10000
  bcast_S10000_S10000x1_0 : S10000.BroadcastsInDim S10000x1 (![0] : Fin 1 → Fin S10000x1.rank)
  bcast_S10000x1_S10000x6_0_1 : S10000x1.BroadcastsInDim S10000x6 (![0, 1] : Fin 2 → Fin S10000x6.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S400x3712_S3712x1024_S400x1024_1_0_0_1_n_n_wf : DotDims.WF S400x3712 S3712x1024 S400x1024 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S400x1024_S1024x6_S400x6_1_0_0_1_n_n_wf : DotDims.WF S400x1024 S1024x6 S400x6 [1] [0] [0] [1] [] []
  gather_S10000x6_S170000x1_S170000x6_1_0_n_n_0_1_16_wf : GatherDims.WF S10000x6 S170000x1 S170000x6 [1] [0] [] [0] [] 1 ![1, 6]
  scatter_S10000x6_S170000x1_S170000x6_1_0_0_1_wf : ScatterDims.WF S10000x6 S170000x1 S170000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x3712.size a ≤ S10000x3712.size a
  hwx0_0 : ∀ i : grid0.Coords, EltTy.bits .bf16 = 32 ∨ (Rect.block (s := S10000x3712) S400x3712.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3712x1024.size a ≤ S3712x1024.size a
  hwx0_1 : ∀ i : grid0.Coords, EltTy.bits .bf16 = 32 ∨ (Rect.block (s := S3712x1024) S3712x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1024.size a ≤ S10000x1024.size a
  hwx0_2 : ∀ i : grid0.Coords, EltTy.bits .f32 = 32 ∨ (Rect.block (s := S10000x1024) S400x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1024.size a ≤ S10000x1024.size a
  hwx1_0 : ∀ i : grid1.Coords, EltTy.bits .bf16 = 32 ∨ (Rect.block (s := S10000x1024) S400x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x6.size a ≤ S1024x6.size a
  hwx1_1 : ∀ i : grid1.Coords, EltTy.bits .bf16 = 32 ∨ (Rect.block (s := S1024x6) S1024x6.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x6.size a ≤ S10000x6.size a
  hwx1_2 : ∀ i : grid1.Coords, EltTy.bits .f32 = 32 ∨ (Rect.block (s := S10000x6) S400x6.size (cc1_transform_2 i) (hinb1_2 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S400x3712_S3712x1024_S400x1024_1_0_0_1_n_n : DotDims S400x3712 S3712x1024 S400x1024 where
  lhsContracting := [1]
  rhsContracting := [0]
  lhsNonContracting := [0]
  rhsNonContracting := [1]
  lhsBatch := []
  rhsBatch := []
  wf := dot_S400x3712_S3712x1024_S400x1024_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S400x1024_S1024x6_S400x6_1_0_0_1_n_n : DotDims S400x1024 S1024x6 S400x6 where
  lhsContracting := [1]
  rhsContracting := [0]
  lhsNonContracting := [0]
  rhsNonContracting := [1]
  lhsBatch := []
  rhsBatch := []
  wf := dot_S400x1024_S1024x6_S400x6_1_0_0_1_n_n_wf
def gather_S10000x6_S170000x1_S170000x6_1_0_n_n_0_1_16 : GatherDims S10000x6 S170000x1 S170000x6 where
  offsetDims := [1]
  collapsedSliceDims := [0]
  operandBatchingDims := []
  startIndicesBatchingDims := []
  startIndexMap := [0]
  indexVectorDim := 1
  sliceSizes := ![1, 6]
  wf := gather_S10000x6_S170000x1_S170000x6_1_0_n_n_0_1_16_wf
def scatter_S10000x6_S170000x1_S170000x6_1_0_0_1 : ScatterDims S10000x6 S170000x1 S170000x6 where
  updateWindowDims := [1]
  insertedWindowDims := [0]
  scatterDimsToOperandDims := [0]
  indexVectorDim := 1
  wf := scatter_S10000x6_S170000x1_S170000x6_1_0_0_1_wf

abbrev win0_0 : Pipeline.Window sig grid0 :=
  Pipeline.Window.ofSpec (Memref.whole main_v30) S400x3712.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S3712x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S400x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S400x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1024x6.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S400x6.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x3703 : Shape := ⟨2, ![10000, 3703]⟩
abbrev S2x160000 : Shape := ⟨2, ![2, 160000]⟩
abbrev S3703x1024 : Shape := ⟨2, ![3703, 1024]⟩
abbrev S1024 : Shape := ⟨1, ![1024]⟩
abbrev S1024x6 : Shape := ⟨2, ![1024, 6]⟩
abbrev S6 : Shape := ⟨1, ![6]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S10000x1024 : Shape := ⟨2, ![10000, 1024]⟩
abbrev S_ : Shape := ⟨0, ![]⟩
abbrev S170000x1 : Shape := ⟨2, ![170000, 1]⟩
abbrev S170000x1024 : Shape := ⟨2, ![170000, 1024]⟩
abbrev S1x1024 : Shape := ⟨2, ![1, 1024]⟩
abbrev S10000x6 : Shape := ⟨2, ![10000, 6]⟩
abbrev S170000x6 : Shape := ⟨2, ![170000, 6]⟩
abbrev S1x6 : Shape := ⟨2, ![1, 6]⟩
abbrev S10000x1 : Shape := ⟨2, ![10000, 1]⟩

abbrev nBuf : Space → Nat
  | .hbm => 123
  | .vmem => 0
  | .smem => 0
  | _ => 0

abbrev bufTy : (tb : Table) → Fin (tcTables nBuf tb) → BufTy
  | .hbm, ⟨0, _⟩ => ⟨S10000x3703, .f32⟩
  | .hbm, ⟨1, _⟩ => ⟨S2x160000, .i32⟩
  | .hbm, ⟨2, _⟩ => ⟨S3703x1024, .f32⟩
  | .hbm, ⟨3, _⟩ => ⟨S1024, .f32⟩
  | .hbm, ⟨4, _⟩ => ⟨S1024x6, .f32⟩
  | .hbm, ⟨5, _⟩ => ⟨S6, .f32⟩
  | .hbm, ⟨6, _⟩ => ⟨S10000, .i32⟩
  | .hbm, ⟨7, _⟩ => ⟨S1x160000, .i32⟩
  | .hbm, ⟨8, _⟩ => ⟨S160000, .i32⟩
  | .hbm, ⟨9, _⟩ => ⟨S170000, .i32⟩
  | .hbm, ⟨10, _⟩ => ⟨S1x160000, .i32⟩
  | .hbm, ⟨11, _⟩ => ⟨S160000, .i32⟩
  | .hbm, ⟨12, _⟩ => ⟨S170000, .i32⟩
  | .hbm, ⟨13, _⟩ => ⟨S10000x1024, .f32⟩
  | .hbm, ⟨14, _⟩ => ⟨S_, .f32⟩
  | .hbm, ⟨15, _⟩ => ⟨S170000, .f32⟩
  | .hbm, ⟨16, _⟩ => ⟨S_, .f32⟩
  | .hbm, ⟨17, _⟩ => ⟨S10000, .f32⟩
  | .hbm, ⟨18, _⟩ => ⟨S170000x1, .i32⟩
  | .hbm, ⟨19, _⟩ => ⟨S10000, .f32⟩
  | .hbm, ⟨20, _⟩ => ⟨S10000, .f32⟩
  | .hbm, ⟨21, _⟩ => ⟨S_, .i32⟩
  | .hbm, ⟨22, _⟩ => ⟨S170000, .i32⟩
  | .hbm, ⟨23, _⟩ => ⟨S170000, .i1⟩
  | .hbm, ⟨24, _⟩ => ⟨S_, .i32⟩
  | .hbm, ⟨25, _⟩ => ⟨S170000, .i32⟩
  | .hbm, ⟨26, _⟩ => ⟨S170000, .i32⟩
  | .hbm, ⟨27, _⟩ => ⟨S170000, .i32⟩
  | .hbm, ⟨28, _⟩ => ⟨S170000x1, .i32⟩
  | .hbm, ⟨29, _⟩ => ⟨S170000, .f32⟩
  | .hbm, ⟨30, _⟩ => ⟨S_, .i32⟩
  | .hbm, ⟨31, _⟩ => ⟨S170000, .i32⟩
  | .hbm, ⟨32, _⟩ => ⟨S170000, .i1⟩
  | .hbm, ⟨33, _⟩ => ⟨S_, .i32⟩
  | .hbm, ⟨34, _⟩ => ⟨S170000, .i32⟩
  | .hbm, ⟨35, _⟩ => ⟨S170000, .i32⟩
  | .hbm, ⟨36, _⟩ => ⟨S170000, .i32⟩
  | .hbm, ⟨37, _⟩ => ⟨S170000x1, .i32⟩
  | .hbm, ⟨38, _⟩ => ⟨S170000, .f32⟩
  | .hbm, ⟨39, _⟩ => ⟨S170000, .f32⟩
  | .hbm, ⟨40, _⟩ => ⟨S_, .i32⟩
  | .hbm, ⟨41, _⟩ => ⟨S170000, .i32⟩
  | .hbm, ⟨42, _⟩ => ⟨S170000, .i1⟩
  | .hbm, ⟨43, _⟩ => ⟨S_, .i32⟩
  | .hbm, ⟨44, _⟩ => ⟨S170000, .i32⟩
  | .hbm, ⟨45, _⟩ => ⟨S170000, .i32⟩
  | .hbm, ⟨46, _⟩ => ⟨S170000, .i32⟩
  | .hbm, ⟨47, _⟩ => ⟨S170000x1, .i32⟩
  | .hbm, ⟨48, _⟩ => ⟨S170000x1024, .f32⟩
  | .hbm, ⟨49, _⟩ => ⟨S170000x1, .f32⟩
  | .hbm, ⟨50, _⟩ => ⟨S170000x1024, .f32⟩
  | .hbm, ⟨51, _⟩ => ⟨S170000x1024, .f32⟩
  | .hbm, ⟨52, _⟩ => ⟨S_, .f32⟩
  | .hbm, ⟨53, _⟩ => ⟨S10000x1024, .f32⟩
  | .hbm, ⟨54, _⟩ => ⟨S170000x1, .i32⟩
  | .hbm, ⟨55, _⟩ => ⟨S10000x1024, .f32⟩
  | .hbm, ⟨56, _⟩ => ⟨S1x1024, .f32⟩
  | .hbm, ⟨57, _⟩ => ⟨S10000x1024, .f32⟩
  | .hbm, ⟨58, _⟩ => ⟨S10000x1024, .f32⟩
  | .hbm, ⟨59, _⟩ => ⟨S_, .f32⟩
  | .hbm, ⟨60, _⟩ => ⟨S10000x1024, .f32⟩
  | .hbm, ⟨61, _⟩ => ⟨S10000x1024, .f32⟩
  | .hbm, ⟨62, _⟩ => ⟨S10000x6, .f32⟩
  | .hbm, ⟨63, _⟩ => ⟨S_, .f32⟩
  | .hbm, ⟨64, _⟩ => ⟨S170000, .f32⟩
  | .hbm, ⟨65, _⟩ => ⟨S_, .f32⟩
  | .hbm, ⟨66, _⟩ => ⟨S10000, .f32⟩
  | .hbm, ⟨67, _⟩ => ⟨S170000x1, .i32⟩
  | .hbm, ⟨68, _⟩ => ⟨S10000, .f32⟩
  | .hbm, ⟨69, _⟩ => ⟨S10000, .f32⟩
  | .hbm, ⟨70, _⟩ => ⟨S_, .i32⟩
  | .hbm, ⟨71, _⟩ => ⟨S170000, .i32⟩
  | .hbm, ⟨72, _⟩ => ⟨S170000, .i1⟩
  | .hbm, ⟨73, _⟩ => ⟨S_, .i32⟩
  | .hbm, ⟨74, _⟩ => ⟨S170000, .i32⟩
  | .hbm, ⟨75, _⟩ => ⟨S170000, .i32⟩
  | .hbm, ⟨76, _⟩ => ⟨S170000, .i32⟩
  | .hbm, ⟨77, _⟩ => ⟨S170000x1, .i32⟩
  | .hbm, ⟨78, _⟩ => ⟨S170000, .f32⟩
  | .hbm, ⟨79, _⟩ => ⟨S_, .i32⟩
  | .hbm, ⟨80, _⟩ => ⟨S170000, .i32⟩
  | .hbm, ⟨81, _⟩ => ⟨S170000, .i1⟩
  | .hbm, ⟨82, _⟩ => ⟨S_, .i32⟩
  | .hbm, ⟨83, _⟩ => ⟨S170000, .i32⟩
  | .hbm, ⟨84, _⟩ => ⟨S170000, .i32⟩
  | .hbm, ⟨85, _⟩ => ⟨S170000, .i32⟩
  | .hbm, ⟨86, _⟩ => ⟨S170000x1, .i32⟩
  | .hbm, ⟨87, _⟩ => ⟨S170000, .f32⟩
  | .hbm, ⟨88, _⟩ => ⟨S170000, .f32⟩
  | .hbm, ⟨89, _⟩ => ⟨S_, .i32⟩
  | .hbm, ⟨90, _⟩ => ⟨S170000, .i32⟩
  | .hbm, ⟨91, _⟩ => ⟨S170000, .i1⟩
  | .hbm, ⟨92, _⟩ => ⟨S_, .i32⟩
  | .hbm, ⟨93, _⟩ => ⟨S170000, .i32⟩
  | .hbm, ⟨94, _⟩ => ⟨S170000, .i32⟩
  | .hbm, ⟨95, _⟩ => ⟨S170000, .i32⟩
  | .hbm, ⟨96, _⟩ => ⟨S170000x1, .i32⟩
  | .hbm, ⟨97, _⟩ => ⟨S170000x6, .f32⟩
  | .hbm, ⟨98, _⟩ => ⟨S170000x1, .f32⟩
  | .hbm, ⟨99, _⟩ => ⟨S170000x6, .f32⟩
  | .hbm, ⟨100, _⟩ => ⟨S170000x6, .f32⟩
  | .hbm, ⟨101, _⟩ => ⟨S_, .f32⟩
  | .hbm, ⟨102, _⟩ => ⟨S10000x6, .f32⟩
  | .hbm, ⟨103, _⟩ => ⟨S170000x1, .i32⟩
  | .hbm, ⟨104, _⟩ => ⟨S10000x6, .f32⟩
  | .hbm, ⟨105, _⟩ => ⟨S1x6, .f32⟩
  | .hbm, ⟨106, _⟩ => ⟨S10000x6, .f32⟩
  | .hbm, ⟨107, _⟩ => ⟨S10000x6, .f32⟩
  | .hbm, ⟨108, _⟩ => ⟨S_, .f32⟩
  | .hbm, ⟨109, _⟩ => ⟨S10000, .f32⟩
  | .hbm, ⟨110, _⟩ => ⟨S_, .f32⟩
  | .hbm, ⟨111, _⟩ => ⟨S10000, .f32⟩
  | .hbm, ⟨112, _⟩ => ⟨S10000, .f32⟩
  | .hbm, ⟨113, _⟩ => ⟨S10000x1, .f32⟩
  | .hbm, ⟨114, _⟩ => ⟨S10000x6, .f32⟩
  | .hbm, ⟨115, _⟩ => ⟨S10000x6, .f32⟩
  | .hbm, ⟨116, _⟩ => ⟨S10000x6, .f32⟩
  | .hbm, ⟨117, _⟩ => ⟨S_, .f32⟩
  | .hbm, ⟨118, _⟩ => ⟨S10000, .f32⟩
  | .hbm, ⟨119, _⟩ => ⟨S10000x1, .f32⟩
  | .hbm, ⟨120, _⟩ => ⟨S10000x1, .f32⟩
  | .hbm, ⟨121, _⟩ => ⟨S10000x6, .f32⟩
  | .hbm, ⟨122, _⟩ => ⟨S10000x6, .f32⟩
  | _, _ => ⟨S10000x3703, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call1_cst : Ref sig .tc := ⟨.hbm, 108, rfl⟩
abbrev main_call1_v0 : Ref sig .tc := ⟨.hbm, 109, rfl⟩
abbrev main_call1_cst_0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_cst_1 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_v82 : Ref sig .tc := ⟨.hbm, 122, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S170000x1_S170000x6_0_1 : S170000x1.BroadcastsInDim S170000x6 (![0, 1] : Fin 2 → Fin S170000x6.rank)
  bcast_S_S10000x6 : S_.BroadcastsInDim S10000x6 (![] : Fin 0 → Fin S10000x6.rank)
  bcast_S6_S1x6_1 : S6.BroadcastsInDim S1x6 (![1] : Fin 1 → Fin S1x6.rank)
  bcast_S1x6_S10000x6_0_1 : S1x6.BroadcastsInDim S10000x6 (![0, 1] : Fin 2 → Fin S10000x6.rank)
  reducesTo_S10000x6_S10000_d1 : S10000x6.ReducesTo [1] S10000
  h_S_ : 0 < S_.numel
  bcast_S10000_S10000x1_0 : S10000.BroadcastsInDim S10000x1 (![0] : Fin 1 → Fin S10000x1.rank)
  bcast_S10000x1_S10000x6_0_1 : S10000x1.BroadcastsInDim S10000x6 (![0, 1] : Fin 2 → Fin S10000x6.rank)
  dot_S10000x3703_S3703x1024_S10000x1024_1_0_0_1_n_n_wf : DotDims.WF S10000x3703 S3703x1024 S10000x1024 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S10000x1024_S1024x6_S10000x6_1_0_0_1_n_n_wf : DotDims.WF S10000x1024 S1024x6 S10000x6 [1] [0] [0] [1] [] []
  gather_S10000x6_S170000x1_S170000x6_1_0_n_n_0_1_16_wf : GatherDims.WF S10000x6 S170000x1 S170000x6 [1] [0] [] [0] [] 1 ![1, 6]
  scatter_S10000x6_S170000x1_S170000x6_1_0_0_1_wf : ScatterDims.WF S10000x6 S170000x1 S170000x6 [1] [0] [0] 1

variable [Facts₀]

def dot_S10000x3703_S3703x1024_S10000x1024_1_0_0_1_n_n : DotDims S10000x3703 S3703x1024 S10000x1024 where
  lhsContracting := [1]
  rhsContracting := [0]
  lhsNonContracting := [0]
  rhsNonContracting := [1]
  lhsBatch := []
  rhsBatch := []
  wf := dot_S10000x3703_S3703x1024_S10000x1024_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S10000x1024_S1024x6_S10000x6_1_0_0_1_n_n : DotDims S10000x1024 S1024x6 S10000x6 where
  lhsContracting := [1]
  rhsContracting := [0]
  lhsNonContracting := [0]
  rhsNonContracting := [1]
  lhsBatch := []
  rhsBatch := []
  wf := dot_S10000x1024_S1024x6_S10000x6_1_0_0_1_n_n_wf
def gather_S10000x6_S170000x1_S170000x6_1_0_n_n_0_1_16 : GatherDims S10000x6 S170000x1 S170000x6 where
  offsetDims := [1]
  collapsedSliceDims := [0]
  operandBatchingDims := []
  startIndicesBatchingDims := []
  startIndexMap := [0]
  indexVectorDim := 1
  sliceSizes := ![1, 6]
  wf := gather_S10000x6_S170000x1_S170000x6_1_0_n_n_0_1_16_wf
def scatter_S10000x6_S170000x1_S170000x6_1_0_0_1 : ScatterDims S10000x6 S170000x1 S170000x6 where
  updateWindowDims := [1]
  insertedWindowDims := [0]
  scatterDimsToOperandDims := [0]
  indexVectorDim := 1
  wf := scatter_S10000x6_S170000x1_S170000x6_1_0_0_1_wf

class Facts : Prop extends Facts₀ where

variable [Facts]
-- ==== Proof.Spec.lean ====
/-
  The graph convolution the two programs compute, as named functions of the argument arrays.

  With 10000 nodes and 160000 edges, the edge list is extended by one self loop per node: row 0 of the edge array
  followed by `0 … 9999` are the 170000 sources, row 1 followed by `0 … 9999` the 170000 targets. The degree of a node
  counts how often it is a target (a scatter-add of ones over the targets), and edge `e` weighs
  `rsqrt (deg (src e)) * rsqrt (deg (dst e))`, an index below zero being wrapped by 10000 before each gather. One layer
  sends a projected feature array `h` to `v ↦ (∑ over the edges e with dst e = v of h (src e) * weight e) + bias`. The first
  layer ends in a maximum with zero, the second in a row-wise log-softmax, `z - max z - log (∑ exp (z - max z))`.

  The two programs differ only in how the two projections (features by first weights; first layer's output by second
  weights) are computed, so everything around them is stated here once, as functions that take the projected array as
  an argument, for any interpretation of the float operations.
-/
import proofs.«148751_j61083024884001_1_alg».proof.Proof.Gen.ReferenceIdeal

noncomputable section

namespace Cert.Spec

open Idealize.ShloMosaic Cert.ReferenceIdeal Cert.ReferenceIdeal.Gen

variable {F : FTy → Type} [FloatOps F]

/-- Integer and float arrays of a shape. -/
abbrev IArr (F : FTy → Type) (s : Shape) : Type := (⟨s, .i32⟩ : BufTy).Contents (Elt F)
abbrev FArr (F : FTy → Type) (s : Shape) : Type := (⟨s, .f32⟩ : BufTy).Contents (Elt F)

/-- The 170000 sources: row 0 of the edge array, then the self loops. -/
def sources (ei : IArr F S2x160000) : IArr F S170000 :=
  concatenate S170000 0 [⟨S160000, (shapeCast _ (extractStridedSlice S1x160000 ![0, 0] ei slices_S2x160000_S1x160000_0_0) shapeCasts_S1x160000_S160000)⟩, ⟨S10000, (iotaInDim S10000 32 0)⟩] concatenates_S160000_S10000_S170000_d0

/-- The 170000 targets: row 1 of the edge array, then the self loops. -/
def targets (ei : IArr F S2x160000) : IArr F S170000 :=
  concatenate S170000 0 [⟨S160000, (shapeCast _ (extractStridedSlice S1x160000 ![1, 0] ei slices_S2x160000_S1x160000_1_0) shapeCasts_S1x160000_S160000)⟩, ⟨S10000, (iotaInDim S10000 32 0)⟩] concatenates_S160000_S10000_S170000_d0

/-- Node indices made ready for a gather: an index below zero has 10000 added; one index per row. -/
def wrapped (v : IArr F S170000) : IArr F S170000x1 :=
  broadcastInDim S170000x1 ![0] bcast_S170000_S170000x1_0 (select (cmpi .slt v (broadcastInDim S170000 ![] bcast_S_S170000 (constantI S_ 32 0#32))) (addi v (broadcastInDim S170000 ![] bcast_S_S170000 (constantI S_ 32 10000#32))) v)

/-- `rsqrt` of each node's degree: ones scatter-added over the targets, then the reciprocal square root. -/
def invSqrtDeg (ei : IArr F S2x160000) : FArr F S10000 :=
  Host.rsqrt (Host.scatterAdd scatter_S10000_S170000x1_S170000_n_0_0_1 (broadcastInDim S10000 ![] bcast_S_S10000 (constant S_ .f32 0x00000000#32)) (broadcastInDim S170000x1 ![0] bcast_S170000_S170000x1_0 (targets ei)) (broadcastInDim S170000 ![] bcast_S_S170000 (constant S_ .f32 0x3F800000#32)))

/-- Each edge's weight, as one column. -/
def weights (ei : IArr F S2x160000) : FArr F S170000x1 :=
  broadcastInDim S170000x1 ![0] bcast_S170000_S170000x1_0 (mulf (Host.gather gather_S10000_S170000x1_S170000_n_0_n_n_0_1_1 (invSqrtDeg ei) (wrapped (sources ei))) (Host.gather gather_S10000_S170000x1_S170000_n_0_n_n_0_1_1 (invSqrtDeg ei) (wrapped (targets ei))))

/-- One aggregation over the edges at 1024 features: gather the sources' rows of `h`, weigh them, add them up at the
    targets, add the bias, and take the maximum with zero. -/
def aggregate1 (h : FArr F S10000x1024) (src dst : IArr F S170000) (wts : FArr F S170000x1) (b1 : FArr F S1024) :
    FArr F S10000x1024 :=
  maximumf (addf (Host.scatterAdd scatter_S10000x1024_S170000x1_S170000x1024_1_0_0_1 (broadcastInDim S10000x1024 ![] bcast_S_S10000x1024 (constant S_ .f32 0x00000000#32)) (broadcastInDim S170000x1 ![0] bcast_S170000_S170000x1_0 dst) (mulf (Host.gather gather_S10000x1024_S170000x1_S170000x1024_1_0_n_n_0_1_11024 h (wrapped src)) (broadcastInDim S170000x1024 ![0, 1] bcast_S170000x1_S170000x1024_0_1 wts))) (broadcastInDim S10000x1024 ![0, 1] bcast_S1x1024_S10000x1024_0_1 (broadcastInDim S1x1024 ![1] bcast_S1024_S1x1024_1 b1))) (broadcastInDim S10000x1024 ![] bcast_S_S10000x1024 (constant S_ .f32 0x00000000#32))

/-- The same aggregation at 6 features, without the maximum. -/
def aggregate2 (h : FArr F S10000x6) (src dst : IArr F S170000) (wts : FArr F S170000x1) (b2 : FArr F S6) :
    FArr F S10000x6 :=
  addf (Host.scatterAdd scatter_S10000x6_S170000x1_S170000x6_1_0_0_1 (broadcastInDim S10000x6 ![] bcast_S_S10000x6 (constant S_ .f32 0x00000000#32)) (broadcastInDim S170000x1 ![0] bcast_S170000_S170000x1_0 dst) (mulf (Host.gather gather_S10000x6_S170000x1_S170000x6_1_0_n_n_0_1_16 h (wrapped src)) (broadcastInDim S170000x6 ![0, 1] bcast_S170000x1_S170000x6_0_1 wts))) (broadcastInDim S10000x6 ![0, 1] bcast_S1x6_S10000x6_0_1 (broadcastInDim S1x6 ![1] bcast_S6_S1x6_1 b2))

/-- The first layer after its projection `h`. -/
def layer1 (h : FArr F S10000x1024) (ei : IArr F S2x160000) (b1 : FArr F S1024) : FArr F S10000x1024 :=
  aggregate1 h (sources ei) (targets ei) (weights ei) b1

/-- The second layer after its projection `h`, before the log-softmax. -/
def layer2 (h : FArr F S10000x6) (ei : IArr F S2x160000) (b2 : FArr F S6) : FArr F S10000x6 :=
  aggregate2 h (sources ei) (targets ei) (weights ei) b2

/-- Each row less its maximum. -/
def centered (z : FArr F S10000x6) : FArr F S10000x6 :=
  subf z (broadcastInDim S10000x6 ![0, 1] bcast_S10000x1_S10000x6_0_1 (broadcastInDim S10000x1 ![0] bcast_S10000_S10000x1_0 (maximumf (broadcastInDim S10000 ![] bcast_S_S10000 (constant S_ .f32 0xFF800000#32)) (Host.reduce FloatOps.maximumf z (constant S_ .f32 0xFF800000#32) reducesTo_S10000x6_S10000_d1 h_S_))))

/-- The row-wise log-softmax. -/
def logSoftmax (z : FArr F S10000x6) : FArr F S10000x6 :=
  subf (centered z) (broadcastInDim S10000x6 ![0, 1] bcast_S10000x1_S10000x6_0_1 (Host.log (broadcastInDim S10000x1 ![0] bcast_S10000_S10000x1_0 (Host.reduceAdd (Host.exp (centered z)) (constant S_ .f32 0x00000000#32) reducesTo_S10000x6_S10000_d1 h_S_))))

/-- The first projection: features by first weights. -/
def proj1 (x : FArr F S10000x3703) (W1 : FArr F S3703x1024) : FArr F S10000x1024 :=
  Host.dotGeneral dot_S10000x3703_S3703x1024_S10000x1024_1_0_0_1_n_n none x W1

/-- The second projection: hidden features by second weights. -/
def proj2 (h : FArr F S10000x1024) (W2 : FArr F S1024x6) : FArr F S10000x6 :=
  Host.dotGeneral dot_S10000x1024_S1024x6_S10000x6_1_0_0_1_n_n none h W2

/-- The whole network. -/
def result (x : FArr F S10000x3703) (ei : IArr F S2x160000) (W1 : FArr F S3703x1024) (b1 : FArr F S1024)
    (W2 : FArr F S1024x6) (b2 : FArr F S6) : FArr F S10000x6 :=
  logSoftmax (layer2 (proj2 (layer1 (proj1 x W1) ei b1) W2) ei b2)

end Cert.Spec

end
-- ==== Proof.KernelHost.lean ====
/-
  The kernel program's host operations, stretch by stretch.

  Before the first call the program builds, from the edge array, the 170000 sources, the 170000 targets and the edge
  weights (once: both layers use the same buffers), and appends nine zero columns to the features and nine zero rows to
  the first weights before rounding both to bf16. Between the calls it aggregates the first product over the edges, adds
  the first bias, takes the maximum with zero and rounds to bf16, beside the second weights rounded to bf16. After the
  second call it aggregates the second product, adds the second bias and applies the row-wise log-softmax. Each statement
  below reads one buffer at the end of a stretch as that function of the buffers the stretch started from.
-/
import proofs.«148751_j61083024884001_1_alg».proof.Proof.Gen.KernelIdeal.Frame
import proofs.«148751_j61083024884001_1_alg».proof.Proof.Spec
import Idealize.ShloMosaic.Lib.StableHlo.Run

set_option maxRecDepth 65536

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- The features with nine zero columns appended, rounded to bf16. -/
def paddedFeatures (x : (⟨S10000x3703, .f32⟩ : BufTy).Contents (Elt F)) : (⟨S10000x3712, .bf16⟩ : BufTy).Contents (Elt F) :=
  truncf .bf16 (pad S10000x3712 ![0, 0] ![0, 9] ![0, 0] x (sitofp (F := F) .f32 (constantI S_ 32 0#32)) pads_S10000x3703_S10000x3712_000_090 h_S_) bitsLt_bf16_f32

/-- The first weights with nine zero rows appended, rounded to bf16. -/
def paddedWeights (w : (⟨S3703x1024, .f32⟩ : BufTy).Contents (Elt F)) : (⟨S3712x1024, .bf16⟩ : BufTy).Contents (Elt F) :=
  truncf .bf16 (pad S3712x1024 ![0, 0] ![9, 0] ![0, 0] w (sitofp (F := F) .f32 (constantI S_ 32 0#32)) pads_S3703x1024_S3712x1024_090_000 h_S_) bitsLt_bf16_f32

variable (m : (ℓ : Loc nD τ sig) → Buf (Elt F) ℓ) (ρ : Dev nD → PrngReg)

/-! ## Before the first call -/

local macro "read_first" : tactic =>
  `(tactic| (dsimp only [W5, W4, W3, W2, W1, hostOps0, hostOps0_1, hostOps0_2, hostOps0_3, hostOps0_4]; after_results_simp))

theorem first_sources (c : Dev nD) : W5 m ρ c (Proc.devRef .tc main_v3) = Cert.Spec.sources (m ((c : Thread nD τ).loc main_arg1)) := by
  read_first <;> rfl
theorem first_targets (c : Dev nD) : W5 m ρ c (Proc.devRef .tc main_v6) = Cert.Spec.targets (m ((c : Thread nD τ).loc main_arg1)) := by
  read_first <;> rfl
theorem first_weights (c : Dev nD) : W5 m ρ c (Proc.devRef .tc main_v27) = Cert.Spec.weights (m ((c : Thread nD τ).loc main_arg1)) := by
  read_first <;> rfl
theorem first_features (c : Dev nD) : W5 m ρ c (Proc.devRef .tc main_v30) = paddedFeatures (m ((c : Thread nD τ).loc main_arg0)) := by
  read_first <;> rfl
theorem first_weights1 (c : Dev nD) : W5 m ρ c (Proc.devRef .tc main_v31) = paddedWeights (m ((c : Thread nD τ).loc main_arg2)) := by
  read_first <;> rfl
theorem first_arg3 (c : Dev nD) : W5 m ρ c (Proc.devRef .tc main_arg3) = (m ((c : Thread nD τ).loc main_arg3)) := by
  read_first <;> rfl
theorem first_arg4 (c : Dev nD) : W5 m ρ c (Proc.devRef .tc main_arg4) = (m ((c : Thread nD τ).loc main_arg4)) := by
  read_first <;> rfl
theorem first_arg5 (c : Dev nD) : W5 m ρ c (Proc.devRef .tc main_arg5) = (m ((c : Thread nD τ).loc main_arg5)) := by
  read_first <;> rfl

/-! ## Between the calls -/

local macro "read_mid" : tactic =>
  `(tactic| (dsimp only [W9, W8, W7, hostOps1, hostOps1_1, hostOps1_2]; after_results_simp))

theorem mid_hidden (c : Dev nD) : W9 m ρ c (Proc.devRef .tc main_v49)
    = truncf .bf16 (Cert.Spec.aggregate1 (W6 m ρ c (Proc.devRef .tc main_v32)) (W6 m ρ c (Proc.devRef .tc main_v3)) (W6 m ρ c (Proc.devRef .tc main_v6))
        (W6 m ρ c (Proc.devRef .tc main_v27)) (W6 m ρ c (Proc.devRef .tc main_arg3))) bitsLt_bf16_f32 := by
  read_mid <;> rfl
theorem mid_weights2 (c : Dev nD) : W9 m ρ c (Proc.devRef .tc main_v50) = truncf .bf16 (W6 m ρ c (Proc.devRef .tc main_arg4)) bitsLt_bf16_f32 := by
  read_mid <;> rfl
theorem mid_sources (c : Dev nD) : W9 m ρ c (Proc.devRef .tc main_v3) = W6 m ρ c (Proc.devRef .tc main_v3) := by
  read_mid <;> rfl
theorem mid_targets (c : Dev nD) : W9 m ρ c (Proc.devRef .tc main_v6) = W6 m ρ c (Proc.devRef .tc main_v6) := by
  read_mid <;> rfl
theorem mid_weights (c : Dev nD) : W9 m ρ c (Proc.devRef .tc main_v27) = W6 m ρ c (Proc.devRef .tc main_v27) := by
  read_mid <;> rfl
theorem mid_arg5 (c : Dev nD) : W9 m ρ c (Proc.devRef .tc main_arg5) = W6 m ρ c (Proc.devRef .tc main_arg5) := by
  read_mid <;> rfl

/-! ## After the second call -/

local macro "read_last" : tactic =>
  `(tactic| (dsimp only [W12, W11, hostOps2, hostOps2_1]; after_results_simp))

theorem last_result (c : Dev nD) : W12 m ρ c (Proc.devRef .tc main_v67)
    = Cert.Spec.logSoftmax (Cert.Spec.aggregate2 (W10 m ρ c (Proc.devRef .tc main_v51)) (W10 m ρ c (Proc.devRef .tc main_v3)) (W10 m ρ c (Proc.devRef .tc main_v6))
        (W10 m ρ c (Proc.devRef .tc main_v27)) (W10 m ρ c (Proc.devRef .tc main_arg5))) := by
  read_last <;> rfl

/-! ## Across the calls: a buffer that is none of a call's three arrays keeps its contents -/

theorem across0 (c : Dev nD) (b : Ref sig .tc) (hb : ∀ w, Pipeline.arrRef spec0 w ≠ b) :
    W6 m ρ c (Proc.devRef .tc b) = W5 m ρ c (Proc.devRef .tc b) := W6_of_ne m ρ c b hb
theorem across1 (c : Dev nD) (b : Ref sig .tc) (hb : ∀ w, Pipeline.arrRef spec1 w ≠ b) :
    W10 m ρ c (Proc.devRef .tc b) = W9 m ρ c (Proc.devRef .tc b) := W10_of_ne m ρ c b hb

end Cert.KernelIdeal.HostValue

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Region0.lean ====
/-
  The first matrix product as one array.

  The call runs over 25 grid points. Point `t` reads rows `400 t … 400 t + 399` of the left array (all 3712 columns) and the
  whole right array, multiplies them into a zero accumulator, and writes the 400 × 1024 product back as rows
  `400 t … 400 t + 399` of the result. Entry `(r, q)` of the result is therefore `∑ k < 3712, left (r, k) * right (k, q)`
  whichever point wrote it, and the 25 row blocks tile the result's 10000 rows: the array after the call is that one
  function of the two arrays the call reads.
-/
import proofs.«148751_j61083024884001_1_alg».proof.Proof.Gen.KernelIdeal.Frame
import proofs.«148751_j61083024884001_1_alg».proof.Proof.LibPlainDot
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The product of an `10000 × 3712` array and a `3712 × 1024` array over the extended reals, entry by entry. -/
def prodArr (A : FVec Ideal ⟨2, ![10000, 3712]⟩ .bf16) (B : FVec Ideal ⟨2, ![3712, 1024]⟩ .bf16) :
    FVec Ideal ⟨2, ![10000, 1024]⟩ .f32 :=
  fun i => ∑ k : Fin 3712, A (ix2 (i 0) k) * B (ix2 k (i 1))

theorem prodArr_apply (A : FVec Ideal ⟨2, ![10000, 3712]⟩ .bf16) (B : FVec Ideal ⟨2, ![3712, 1024]⟩ .bf16)
    (r : Fin 10000) (q : Fin 1024) : prodArr A B (ix2 r q) = ∑ k : Fin 3712, A (ix2 r k) * B (ix2 k q) := rfl

theorem zero_off : (![0, 0] : Fin 2 → Nat) = fun _ => 0 :=
  funext fun a => by match a with | ⟨0, _⟩ => rfl | ⟨1, _⟩ => rfl

/-- What one point leaves in its output block, at an entry: the product of its two input blocks there. -/
theorem out_apply (x0 : Vec Ideal S400x3712 .bf16) (x1 : Vec Ideal S3712x1024 .bf16) (p : Fin 400) (q : Fin 1024) :
    out0_2 x0 x1 (ix2 p q) = ∑ k : Fin 3712, x0 (ix2 p k) * x1 (ix2 k q) := by
  unfold out0_2
  rw [View.canon_unit_zero zero_off]
  simp only [View.ld_unit_zero (S := S400x3712) zero_off, View.ld_unit_zero (S := S3712x1024) zero_off]
  unfold k0_pay1
  simp only [shapeCast_self]
  exact Cert.Lib.PlainDot.matmul_zero_apply none x0 x1 p q

/-- The printed index maps over the grid: the left and result windows move down one block of rows per point, the right
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two arrays as the call finds them. -/
theorem flushed_eq (c : Dev nD) (t : Fin cfg0.N) :
    (dat0 V c).flushed 2 t
      = ((cfg0.win 2).blk t).view.read (Elt Ideal) (prodArr (V c main_v30) (V c main_v31)) := by
  show (cfg0.win 2).cut (grid0.coords t) ((dat0 V c).after 2 t) = _
  rw [after0_2]
  obtain ⟨e0, e1, e2, e3, e4, e5⟩ := idx_facts t
  have ht : t.val < 25 := t.isLt
  funext j
  obtain ⟨p, q, rfl⟩ : ∃ (p : Fin 400) (q : Fin 1024), j = ix2 p q := ⟨j 0, j 1, eq_ix2 j⟩
  have hp : p.val < 400 := p.isLt
  have hrow : t.val * 400 + p.val < 10000 := by omega
  have rdA : ∀ k : Fin 3712, iblk0 V c 0 t (ix2 p k)
      = V c main_v30 (ix2 (n0 := 10000) (n1 := 3712) ⟨t.val * 400 + p.val, hrow⟩ k) := fun k => by
    show V c main_v30 (((cfg0.win 0).blk t).view.emb (ix2 p k)) = _
    refine congrArg (V c main_v30) ?_
    funext a; apply Fin.ext
    match a with
    | ⟨0, _⟩ => show win0_0.index t (0 : Fin 2) * 400 + 1 * p.val = t.val * 400 + p.val; omega
    | ⟨1, _⟩ => show win0_0.index t (1 : Fin 2) * 3712 + 1 * k.val = k.val; omega
  have rdB : ∀ k : Fin 3712, iblk0 V c 1 t (ix2 k q) = V c main_v31 (ix2 (n0 := 3712) (n1 := 1024) k q) := fun k => by
    show V c main_v31 (((cfg0.win 1).blk t).view.emb (ix2 k q)) = _
    refine congrArg (V c main_v31) ?_
    funext a; apply Fin.ext
    match a with
    | ⟨0, _⟩ => show win0_1.index t (0 : Fin 2) * 3712 + 1 * k.val = k.val; omega
    | ⟨1, _⟩ => show win0_1.index t (1 : Fin 2) * 1024 + 1 * q.val = q.val; omega
  have hemb : ((cfg0.win 2).blk t).view.emb (ix2 p q)
      = ix2 (n0 := 10000) (n1 := 1024) ⟨t.val * 400 + p.val, hrow⟩ q := by
    funext a; apply Fin.ext
    match a with
    | ⟨0, _⟩ => show win0_2.index t (0 : Fin 2) * 400 + 1 * p.val = t.val * 400 + p.val; omega
    | ⟨1, _⟩ => show win0_2.index t (1 : Fin 2) * 1024 + 1 * q.val = q.val; omega
  refine (out_apply (iblk0 V c 0 t) (iblk0 V c 1 t) p q).trans ?_
  show _ = prodArr (V c main_v30) (V c main_v31) (((cfg0.win 2).blk t).view.emb (ix2 p q))
  rw [hemb, prodArr_apply]
  exact Finset.sum_congr rfl fun k _ => by rw [rdA k, rdB k]

/-- An index of the result is in point `t`'s block iff each coordinate is in the block's range on its axis. -/
theorem mem_blk (t : Fin cfg0.N) (i : S10000x1024.Idx) :
    i ∈ ((cfg0.win 2).blk t).view.set ↔ ∀ a : Fin 2, win0_2.index t a * S400x1024.size a ≤ (i a).val
      ∧ (i a).val < win0_2.index t a * S400x1024.size a + S400x1024.size a := by
  show i ∈ ((View.whole main_v32).slice (win0_2.rect t)).set ↔ _
  rw [View.set_slice_whole, Rect.mem_set_unit]
  exact Iff.rfl

/-- Every row of the result lies in the block of the point numbered by the row's quotient by 400. -/
theorem cover (i : S10000x1024.Idx) :
    ∃ t : Fin cfg0.N, (cfg0.win 2).flush t = true ∧ i ∈ ((cfg0.win 2).blk t).view.set := by
  have hi0 : (i 0).val < 10000 := (i 0).isLt
  have hi1 : (i 1).val < 1024 := (i 1).isLt
  have hq : (i 0).val / 400 < 25 := by omega
  obtain ⟨t, htv⟩ : ∃ t : Fin cfg0.N, t.val = (i 0).val / 400 := ⟨⟨(i 0).val / 400, hq⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 400 ≤ (i 0).val ∧ (i 0).val < win0_2.index t (0 : Fin 2) * 400 + 400
    omega
  | ⟨1, _⟩ =>
    show win0_2.index t (1 : Fin 2) * 1024 ≤ (i 1).val ∧ (i 1).val < win0_2.index t (1 : Fin 2) * 1024 + 1024
    omega

/-- The result array after the call: the product of the two arrays as the call finds them. -/
theorem final (c : Dev nD) : (dat0 V c).arrAt 2 cfg0.N = prodArr (V c main_v30) (V c main_v31) :=
  (dat0 V c).arrAt_eq_of_cover 2 _ (fun t _ => flushed_eq V c t) cover

end Cert.KernelIdeal.Region0

end
-- ==== Proof.Region1.lean ====
/-
  The second matrix product as one array.

  The call runs over 25 grid points. Point `t` reads rows `400 t … 400 t + 399` of the left array (all 1024 columns) and the
  whole right array, multiplies them into a zero accumulator, and writes the 400 × 6 product back as rows
  `400 t … 400 t + 399` of the result. Entry `(r, q)` of the result is therefore `∑ k < 1024, left (r, k) * right (k, q)`
  whichever point wrote it, and the 25 row blocks tile the result's 10000 rows: the array after the call is that one
  function of the two arrays the call reads.
-/
import proofs.«148751_j61083024884001_1_alg».proof.Proof.Gen.KernelIdeal.Frame
import proofs.«148751_j61083024884001_1_alg».proof.Proof.LibPlainDot
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The product of an `10000 × 1024` array and a `1024 × 6` array over the extended reals, entry by entry. -/
def prodArr (A : FVec Ideal ⟨2, ![10000, 1024]⟩ .bf16) (B : FVec Ideal ⟨2, ![1024, 6]⟩ .bf16) :
    FVec Ideal ⟨2, ![10000, 6]⟩ .f32 :=
  fun i => ∑ k : Fin 1024, A (ix2 (i 0) k) * B (ix2 k (i 1))

theorem prodArr_apply (A : FVec Ideal ⟨2, ![10000, 1024]⟩ .bf16) (B : FVec Ideal ⟨2, ![1024, 6]⟩ .bf16)
    (r : Fin 10000) (q : Fin 6) : prodArr A B (ix2 r q) = ∑ k : Fin 1024, A (ix2 r k) * B (ix2 k q) := rfl

theorem zero_off : (![0, 0] : Fin 2 → Nat) = fun _ => 0 :=
  funext fun a => by match a with | ⟨0, _⟩ => rfl | ⟨1, _⟩ => rfl

/-- What one point leaves in its output block, at an entry: the product of its two input blocks there. -/
theorem out_apply (x0 : Vec Ideal S400x1024 .bf16) (x1 : Vec Ideal S1024x6 .bf16) (p : Fin 400) (q : Fin 6) :
    out1_2 x0 x1 (ix2 p q) = ∑ k : Fin 1024, x0 (ix2 p k) * x1 (ix2 k q) := by
  unfold out1_2
  rw [View.canon_unit_zero zero_off]
  simp only [View.ld_unit_zero (S := S400x1024) zero_off, View.ld_unit_zero (S := S1024x6) zero_off]
  unfold k1_pay1
  simp only [shapeCast_self]
  exact Cert.Lib.PlainDot.matmul_zero_apply none x0 x1 p q

/-- The printed index maps over the grid: the left and result windows move down one block of rows per point, the right
    window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the product of the two arrays as the call finds them. -/
theorem flushed_eq (c : Dev nD) (t : Fin cfg1.N) :
    (dat1 V c).flushed 2 t
      = ((cfg1.win 2).blk t).view.read (Elt Ideal) (prodArr (V c main_v49) (V c main_v50)) := by
  show (cfg1.win 2).cut (grid1.coords t) ((dat1 V c).after 2 t) = _
  rw [after1_2]
  obtain ⟨e0, e1, e2, e3, e4, e5⟩ := idx_facts t
  have ht : t.val < 25 := t.isLt
  funext j
  obtain ⟨p, q, rfl⟩ : ∃ (p : Fin 400) (q : Fin 6), j = ix2 p q := ⟨j 0, j 1, eq_ix2 j⟩
  have hp : p.val < 400 := p.isLt
  have hrow : t.val * 400 + p.val < 10000 := by omega
  have rdA : ∀ k : Fin 1024, iblk1 V c 0 t (ix2 p k)
      = V c main_v49 (ix2 (n0 := 10000) (n1 := 1024) ⟨t.val * 400 + p.val, hrow⟩ k) := fun k => by
    show V c main_v49 (((cfg1.win 0).blk t).view.emb (ix2 p k)) = _
    refine congrArg (V c main_v49) ?_
    funext a; apply Fin.ext
    match a with
    | ⟨0, _⟩ => show win1_0.index t (0 : Fin 2) * 400 + 1 * p.val = t.val * 400 + p.val; omega
    | ⟨1, _⟩ => show win1_0.index t (1 : Fin 2) * 1024 + 1 * k.val = k.val; omega
  have rdB : ∀ k : Fin 1024, iblk1 V c 1 t (ix2 k q) = V c main_v50 (ix2 (n0 := 1024) (n1 := 6) k q) := fun k => by
    show V c main_v50 (((cfg1.win 1).blk t).view.emb (ix2 k q)) = _
    refine congrArg (V c main_v50) ?_
    funext a; apply Fin.ext
    match a with
    | ⟨0, _⟩ => show win1_1.index t (0 : Fin 2) * 1024 + 1 * k.val = k.val; omega
    | ⟨1, _⟩ => show win1_1.index t (1 : Fin 2) * 6 + 1 * q.val = q.val; omega
  have hemb : ((cfg1.win 2).blk t).view.emb (ix2 p q)
      = ix2 (n0 := 10000) (n1 := 6) ⟨t.val * 400 + p.val, hrow⟩ q := by
    funext a; apply Fin.ext
    match a with
    | ⟨0, _⟩ => show win1_2.index t (0 : Fin 2) * 400 + 1 * p.val = t.val * 400 + p.val; omega
    | ⟨1, _⟩ => show win1_2.index t (1 : Fin 2) * 6 + 1 * q.val = q.val; omega
  refine (out_apply (iblk1 V c 0 t) (iblk1 V c 1 t) p q).trans ?_
  show _ = prodArr (V c main_v49) (V c main_v50) (((cfg1.win 2).blk t).view.emb (ix2 p q))
  rw [hemb, prodArr_apply]
  exact Finset.sum_congr rfl fun k _ => by rw [rdA k, rdB k]

/-- An index of the result is in point `t`'s block iff each coordinate is in the block's range on its axis. -/
theorem mem_blk (t : Fin cfg1.N) (i : S10000x6.Idx) :
    i ∈ ((cfg1.win 2).blk t).view.set ↔ ∀ a : Fin 2, win1_2.index t a * S400x6.size a ≤ (i a).val
      ∧ (i a).val < win1_2.index t a * S400x6.size a + S400x6.size a := by
  show i ∈ ((View.whole main_v51).slice (win1_2.rect t)).set ↔ _
  rw [View.set_slice_whole, Rect.mem_set_unit]
  exact Iff.rfl

/-- Every row of the result lies in the block of the point numbered by the row's quotient by 400. -/
theorem cover (i : S10000x6.Idx) :
    ∃ t : Fin cfg1.N, (cfg1.win 2).flush t = true ∧ i ∈ ((cfg1.win 2).blk t).view.set := by
  have hi0 : (i 0).val < 10000 := (i 0).isLt
  have hi1 : (i 1).val < 6 := (i 1).isLt
  have hq : (i 0).val / 400 < 25 := by omega
  obtain ⟨t, htv⟩ : ∃ t : Fin cfg1.N, t.val = (i 0).val / 400 := ⟨⟨(i 0).val / 400, hq⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 400 ≤ (i 0).val ∧ (i 0).val < win1_2.index t (0 : Fin 2) * 400 + 400
    omega
  | ⟨1, _⟩ =>
    show win1_2.index t (1 : Fin 2) * 6 ≤ (i 1).val ∧ (i 1).val < win1_2.index t (1 : Fin 2) * 6 + 6
    omega

/-- The result array after the call: the product of the two arrays as the call finds them. -/
theorem final (c : Dev nD) : (dat1 V c).arrAt 2 cfg1.N = prodArr (V c main_v49) (V c main_v50) :=
  (dat1 V c).arrAt_eq_of_cover 2 _ (fun t _ => flushed_eq V c t) cover

end Cert.KernelIdeal.Region1

end
-- ==== Proof.LibZeroPadDot.lean ====
/-
  A matrix product whose contraction axis both operands pad with zeros.

  Let `A` be `M × (K + P)` and `B` be `(K + P) × N` over the extended reals, agreeing with an `M × K` array `x` and a
  `K × N` array `w` on the first `K` positions of the contraction axis and both zero on the last `P`. Then every entry
  of the product over `K + P` terms is the entry of the product of `x` and `w` over `K` terms: the last `P` terms are
  `0 * 0 = 0`, which holds in the extended reals with no finiteness assumed.

  The second half reads a host `pad` of a rank-2 array that appends `P` columns, or `P` rows, at an index: inside the
  operand it is the operand's entry, in the appended part the padding value.
-/
import Idealize.ShloMosaic.Lib.ValueIdx
import Idealize.ShloMosaic.Lib.KernelVsHost

noncomputable section

namespace Cert.Lib.ZeroPadDot

open Idealize.ShloMosaic Idealize.ShloMosaic.ValueIdx

variable {M K P N : Nat}

/-- The product over the padded axis is the product over the unpadded one. -/
theorem sum_padded {φ₁ φ₂ ψ₁ ψ₂ : FTy} (x : FVec Ideal ⟨2, ![M, K]⟩ φ₁) (w : FVec Ideal ⟨2, ![K, N]⟩ φ₂)
    (A : FVec Ideal ⟨2, ![M, K + P]⟩ ψ₁) (B : FVec Ideal ⟨2, ![K + P, N]⟩ ψ₂)
    (hA₁ : ∀ (r : Fin M) (k : Fin K), A (ix2 r (Fin.castAdd P k)) = x (ix2 r k))
    (hA₂ : ∀ (r : Fin M) (k : Fin P), A (ix2 r (Fin.natAdd K k)) = (0 : EReal))
    (hB₁ : ∀ (k : Fin K) (q : Fin N), B (ix2 (Fin.castAdd P k) q) = w (ix2 k q))
    (hB₂ : ∀ (k : Fin P) (q : Fin N), B (ix2 (Fin.natAdd K k) q) = (0 : EReal))
    (r : Fin M) (q : Fin N) :
    (∑ k : Fin (K + P), A (ix2 r k) * B (ix2 k q) : EReal) = ∑ k : Fin K, x (ix2 r k) * w (ix2 k q) := by
  rw [Fin.sum_univ_add]
  have h2 : (∑ k : Fin P, A (ix2 r (Fin.natAdd K k)) * B (ix2 (Fin.natAdd K k) q) : EReal) = 0 :=
    Finset.sum_eq_zero fun k _ => by rw [hA₂, hB₂, zero_mul]
  rw [h2, add_zero]
  exact Finset.sum_congr rfl fun k _ => by rw [hA₁, hB₁]

variable {α : Type}

/-- `P` columns appended: inside the operand the padded array is the operand. -/
theorem padCols_inside (x : (⟨2, ![M, K]⟩ : Shape).Idx → α) {u : Shape} (v : u.Idx → α)
    (h : (⟨2, ![M, K]⟩ : Shape).Pads ![0, 0] ![0, P] ![0, 0] ⟨2, ![M, K + P]⟩) (hu : 0 < u.numel) (r : Fin M) (k : Fin K) :
    pad ⟨2, ![M, K + P]⟩ ![0, 0] ![0, P] ![0, 0] x v h hu (ix2 r (Fin.castAdd P k)) = x (ix2 r k) :=
  pad_apply_of_inside ![0, 0] ![0, P] ![0, 0] x v h hu _ (ix2 r k) fun a => by
    match a with
    | ⟨0, _⟩ => show r.val = 0 + r.val * (0 + 1); omega
    | ⟨1, _⟩ => show k.val = 0 + k.val * (0 + 1); omega

/-- `P` columns appended: in the appended columns the padded array is the padding value. -/
theorem padCols_outside (x : (⟨2, ![M, K]⟩ : Shape).Idx → α) {u : Shape} (v : u.Idx → α)
    (h : (⟨2, ![M, K]⟩ : Shape).Pads ![0, 0] ![0, P] ![0, 0] ⟨2, ![M, K + P]⟩) (hu : 0 < u.numel) (r : Fin M) (k : Fin P) :
    pad ⟨2, ![M, K + P]⟩ ![0, 0] ![0, P] ![0, 0] x v h hu (ix2 r (Fin.natAdd K k)) = v (Shape.Idx.first hu) :=
  pad_apply_of_not_inside ![0, 0] ![0, P] ![0, 0] x v h hu _ (1 : Fin 2) fun hin => by
    have h3 : (K + k.val - 0) / (0 + 1) < K := hin.2.2
    rw [Nat.sub_zero, Nat.zero_add, Nat.div_one] at h3
    omega

/-- `P` rows appended: inside the operand the padded array is the operand. -/
theorem padRows_inside (w : (⟨2, ![K, N]⟩ : Shape).Idx → α) {u : Shape} (v : u.Idx → α)
    (h : (⟨2, ![K, N]⟩ : Shape).Pads ![0, 0] ![P, 0] ![0, 0] ⟨2, ![K + P, N]⟩) (hu : 0 < u.numel) (k : Fin K) (q : Fin N) :
    pad ⟨2, ![K + P, N]⟩ ![0, 0] ![P, 0] ![0, 0] w v h hu (ix2 (Fin.castAdd P k) q) = w (ix2 k q) :=
  pad_apply_of_inside ![0, 0] ![P, 0] ![0, 0] w v h hu _ (ix2 k q) fun a => by
    match a with
    | ⟨0, _⟩ => show k.val = 0 + k.val * (0 + 1); omega
    | ⟨1, _⟩ => show q.val = 0 + q.val * (0 + 1); omega

/-- `P` rows appended: in the appended rows the padded array is the padding value. -/
theorem padRows_outside (w : (⟨2, ![K, N]⟩ : Shape).Idx → α) {u : Shape} (v : u.Idx → α)
    (h : (⟨2, ![K, N]⟩ : Shape).Pads ![0, 0] ![P, 0] ![0, 0] ⟨2, ![K + P, N]⟩) (hu : 0 < u.numel) (k : Fin P) (q : Fin N) :
    pad ⟨2, ![K + P, N]⟩ ![0, 0] ![P, 0] ![0, 0] w v h hu (ix2 (Fin.natAdd K k) q) = v (Shape.Idx.first hu) :=
  pad_apply_of_not_inside ![0, 0] ![P, 0] ![0, 0] w v h hu _ (0 : Fin 2) fun hin => by
    have h3 : (K + k.val - 0) / (0 + 1) < K := hin.2.2
    rw [Nat.sub_zero, Nat.zero_add, Nat.div_one] at h3
    omega

end Cert.Lib.ZeroPadDot

end
-- ==== Proof.KernelValue.lean ====
/-
  The kernel program's result, at the extended reals, is the network of `Spec` applied to its argument arrays.

  The first call multiplies the zero-padded features by the zero-padded first weights: the nine appended positions of
  the contraction axis contribute `0 * 0 = 0`, so each entry is the sum over the 3703 original positions, which is the
  host's matrix product of the unpadded arrays. The second call multiplies the first layer's output by the second
  weights, both rounded to bf16, and at the extended reals a rounding is the identity. Everything around the two calls
  is the same aggregation the reference applies, on the same sources, targets and weights.
-/
import proofs.«148751_j61083024884001_1_alg».proof.Proof.KernelHost
import proofs.«148751_j61083024884001_1_alg».proof.Proof.Region0
import proofs.«148751_j61083024884001_1_alg».proof.Proof.Region1
import proofs.«148751_j61083024884001_1_alg».proof.Proof.LibZeroPadDot
import proofs.«148751_j61083024884001_1_alg».proof.Proof.LibPlainDot
import proofs.«148751_j61083024884001_1_alg».proof.Proof.Spec
import Idealize.ShloMosaic.Lib.KernelVsHost
import Idealize.ShloMosaic.Lib.ValueIdx

set_option maxRecDepth 65536

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.HostValue

/-- The product of the zero-padded arrays is the product of the arrays. -/
theorem padded_product (x : (⟨S10000x3703, .f32⟩ : BufTy).Contents (Elt Ideal)) (w : (⟨S3703x1024, .f32⟩ : BufTy).Contents (Elt Ideal)) :
    Region0.prodArr (paddedFeatures x) (paddedWeights w) = Cert.Spec.proj1 x w := by
  funext i
  obtain ⟨r, q, rfl⟩ : ∃ (r : Fin 10000) (q : Fin 1024), i = ix2 r q := ⟨i 0, i 1, eq_ix2 i⟩
  rw [Region0.prodArr_apply]
  refine (Cert.Lib.ZeroPadDot.sum_padded (M := 10000) (K := 3703) (P := 9) (N := 1024) (φ₁ := .f32) (φ₂ := .f32) (ψ₁ := .bf16) (ψ₂ := .bf16) x w (paddedFeatures x) (paddedWeights w)
    ?_ ?_ ?_ ?_ r q).trans ?_
  · intro r k
    exact Cert.Lib.ZeroPadDot.padCols_inside (M := 10000) (K := 3703) (P := 9) x (sitofp (F := Ideal) .f32 (constantI S_ 32 0#32)) pads_S10000x3703_S10000x3712_000_090 h_S_ r k
  · intro r k
    exact (Cert.Lib.ZeroPadDot.padCols_outside (M := 10000) (K := 3703) (P := 9) x (sitofp (F := Ideal) .f32 (constantI S_ 32 0#32)) pads_S10000x3703_S10000x3712_000_090 h_S_ r k).trans (sitofp_zero (φ := .f32))
  · intro k q
    exact Cert.Lib.ZeroPadDot.padRows_inside (K := 3703) (P := 9) (N := 1024) w (sitofp (F := Ideal) .f32 (constantI S_ 32 0#32)) pads_S3703x1024_S3712x1024_090_000 h_S_ k q
  · intro k q
    exact (Cert.Lib.ZeroPadDot.padRows_outside (K := 3703) (P := 9) (N := 1024) w (sitofp (F := Ideal) .f32 (constantI S_ 32 0#32)) pads_S3703x1024_S3712x1024_090_000 h_S_ k q).trans (sitofp_zero (φ := .f32))
  · exact (Cert.Lib.PlainDot.dotGeneral_apply (M := 10000) (K := 3703) (N := 1024) (φ₁ := .f32) (φ₂ := .f32) none .single x w r q).symm

/-- The product of the arrays rounded to bf16 is, at the extended reals, the product of the arrays. -/
theorem rounded_product (h : (⟨S10000x1024, .f32⟩ : BufTy).Contents (Elt Ideal)) (w : (⟨S1024x6, .f32⟩ : BufTy).Contents (Elt Ideal)) :
    Region1.prodArr (truncf .bf16 h bitsLt_bf16_f32) (truncf .bf16 w bitsLt_bf16_f32) = Cert.Spec.proj2 h w := by
  funext i
  obtain ⟨r, q, rfl⟩ : ∃ (r : Fin 10000) (q : Fin 6), i = ix2 r q := ⟨i 0, i 1, eq_ix2 i⟩
  rw [Region1.prodArr_apply]
  exact (Cert.Lib.PlainDot.dotGeneral_apply (M := 10000) (K := 1024) (N := 6) (φ₁ := .f32) (φ₂ := .f32) none .single h w r q).symm

variable (m : (ℓ : Loc nD τ sig) → Buf (Elt Ideal) ℓ) (ρ : Dev nD → PrngReg)

/-- The first call's result array: the product of the two arrays it was entered with. -/
theorem after_first (c : Dev nD) :
    W6 m ρ c (Proc.devRef .tc main_v32) = Region0.prodArr (W5 m ρ c (Proc.devRef .tc main_v30)) (W5 m ρ c (Proc.devRef .tc main_v31)) :=
  (W6_arr m ρ c 2).trans (Region0.final (V5 m ρ) c)

/-- The second call's result array: the product of the two arrays it was entered with. -/
theorem after_second (c : Dev nD) :
    W10 m ρ c (Proc.devRef .tc main_v51) = Region1.prodArr (W9 m ρ c (Proc.devRef .tc main_v49)) (W9 m ρ c (Proc.devRef .tc main_v50)) :=
  (W10_arr m ρ c 2).trans (Region1.final (V9 m ρ) c)

/-- The result buffer at the end of the run is the network of the argument arrays. -/
theorem result_eq (c : Dev nD) :
    W12 m ρ c (Proc.devRef .tc main_v67)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [last_result, after_second, mid_hidden, mid_weights2, after_first]
  rw [across1 m ρ c main_v3 (by decide), across1 m ρ c main_v6 (by decide), across1 m ρ c main_v27 (by decide),
    across1 m ρ c main_arg5 (by decide)]
  rw [mid_sources, mid_targets, mid_weights, mid_arg5]
  rw [across0 m ρ c main_v3 (by decide), across0 m ρ c main_v6 (by decide), across0 m ρ c main_v27 (by decide),
    across0 m ρ c main_arg3 (by decide), across0 m ρ c main_arg4 (by decide), across0 m ρ c main_arg5 (by decide)]
  rw [first_sources, first_targets, first_weights, first_features, first_weights1, first_arg3, first_arg4, first_arg5]
  rw [padded_product, rounded_product]
  rfl

end Cert.KernelIdeal.KernelValue

end
-- ==== Proof.RefValue.lean ====
/-
  The reference program's result is the network of `Spec` applied to its argument arrays.

  The reference's run leaves its result at the composition of its host operations, in the order the program lists
  them. That composition is, operation for operation, the definition of `Spec.result`: the two projections are the
  host's own matrix products, the degree weights are computed once per layer from the same edge array (so both copies
  are `Spec.weights`), and the tail is the row-wise log-softmax.
-/
import proofs.«148751_j61083024884001_1_alg».proof.Proof.RefRun
import proofs.«148751_j61083024884001_1_alg».proof.Proof.Spec

set_option maxRecDepth 65536

noncomputable section

namespace Cert.ReferenceIdeal.RefValue

open Idealize.ShloMosaic Idealize.ShloMosaic.TcCoe Idealize.SL.Sem Cert.ReferenceIdeal Cert.ReferenceIdeal.Gen

variable {F : FTy → Type} [FloatOps F]

/-- The run's composed term is the network of the argument arrays. -/
theorem res_eq (m : (ℓ : Loc nD τ sig) → Buf (Elt F) ℓ) (c : Dev nD) :
    Cert.ReferenceIdeal.RunP.res_main_v82 m c
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v82 Cert.Spec.result Cert.Spec.logSoftmax Cert.Spec.centered Cert.Spec.layer2
    Cert.Spec.layer1 Cert.Spec.aggregate2 Cert.Spec.aggregate1 Cert.Spec.proj2 Cert.Spec.proj1 Cert.Spec.weights Cert.Spec.invSqrtDeg Cert.Spec.wrapped
    Cert.Spec.sources Cert.Spec.targets
  rfl

end Cert.ReferenceIdeal.RefValue

end
-- ==== Proof.lean ====
/-
  A two-layer graph convolution: the kernel program against the reference.

  Both programs compute, from node features `x`, an edge list and two weight matrices with biases,
  `log_softmax (agg (relu (agg (x · W1) + b1) · W2) + b2)`, where `agg` sums each node's incoming rows, the self loops
  included, each weighted by `rsqrt (deg src) * rsqrt (deg dst)`. The kernel program computes the two matrix products
  in two calls over 25 blocks of 400 rows, on operands rounded to bf16 and, for the first product, with the contraction
  axis padded from 3703 to 3712 by zeros; the reference uses the host's matrix product. Over the extended reals a
  rounding is the identity and the nine padded positions contribute `0 * 0 = 0`, so the products agree entry by entry
  with no assumption on the inputs, and the operations around them are the same in both programs (`Spec`). Hence both
  runs end with the result at `Spec.result` of the argument arrays. The three frames: the two kernel programs' are the
  generated frame proofs; the reference's is its run with the result dropped. The idealization rewrote nothing, so the
  fourth conjunct is `True`.
-/
import proofs.«148751_j61083024884001_1_alg».proof.Defs
import proofs.«148751_j61083024884001_1_alg».proof.Proof.Gen.Kernel
import proofs.«148751_j61083024884001_1_alg».proof.Proof.Gen.Kernel.Skeleton
import proofs.«148751_j61083024884001_1_alg».proof.Proof.Gen.Kernel.Launch
import proofs.«148751_j61083024884001_1_alg».proof.Proof.Gen.Kernel.Points
import proofs.«148751_j61083024884001_1_alg».proof.Proof.Gen.Kernel.Frame
import proofs.«148751_j61083024884001_1_alg».proof.Proof.Gen.KernelIdeal
import proofs.«148751_j61083024884001_1_alg».proof.Proof.Gen.KernelIdeal.Skeleton
import proofs.«148751_j61083024884001_1_alg».proof.Proof.Gen.KernelIdeal.Launch
import proofs.«148751_j61083024884001_1_alg».proof.Proof.Gen.KernelIdeal.Points
import proofs.«148751_j61083024884001_1_alg».proof.Proof.Gen.KernelIdeal.Frame
import proofs.«148751_j61083024884001_1_alg».proof.Proof.Gen.ReferenceIdeal
import proofs.«148751_j61083024884001_1_alg».proof.Proof.Gen.Pre_finite_inputs
import proofs.«148751_j61083024884001_1_alg».proof.Proof.KernelRun
import proofs.«148751_j61083024884001_1_alg».proof.Proof.KernelValue
import proofs.«148751_j61083024884001_1_alg».proof.Proof.RefRun
import proofs.«148751_j61083024884001_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the arguments both programs end with the result at the network of the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.Gen.run_v67 (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
